-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x3 : Shape := ⟨2, ![1600000, 3]⟩
abbrev S1x8 : Shape := ⟨2, ![1, 8]⟩
abbrev S100000 : Shape := ⟨1, ![100000]⟩
abbrev S259x128 : Shape := ⟨2, ![259, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x3 : S_.BroadcastsInDim S1600000x3 (![] : Fin 0 → Fin S1600000x3.rank)
  reducesTo_S1600000x3_S_d0_1 : S1600000x3.ReducesTo [0, 1] S_
  bcast_S_S1x8 : S_.BroadcastsInDim S1x8 (![] : Fin 0 → Fin S1x8.rank)
  reducesTo_S1x8_S_d0_1 : S1x8.ReducesTo [0, 1] S_
  bcast_S_S259x128 : S_.BroadcastsInDim S259x128 (![] : Fin 0 → Fin S259x128.rank)
  reducesTo_S259x128_S_d0_1 : S259x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_arg7 : FVec F S128x128 .f32) (main_arg8 : FVec F S128 .f32) (main_v13 : IVec S_ 1) (main_v16 : IVec S259x128 1) : IVec S_ 1 :=
  let main_c_5 : IVec S_ 1 := constantI S_ 1 1#1
  let main_v17 : IVec S_ 1 := (fun x v => Host.reduce IntOp.andi x v reducesTo_S259x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S1600000x3 .f32) (main_arg3 : FVec F S1x8 .f32) (main_arg4 : IVec S100000 32) (main_arg5 : FVec F S259x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x3 .f32 := Host.absf main_arg2
  let main_cst_0 : FVec F S_ .f32 := constant S_ .f32 0x7F800000#32
  let main_v5 : FVec F S1600000x3 .f32 := broadcastInDim S1600000x3 ![] bcast_S_S1600000x3 main_cst_0
  let main_v6 : IVec S1600000x3 1 := cmpf .olt main_v4 main_v5
  let main_c_1 : IVec S_ 1 := constantI S_ 1 1#1
  let main_v7 : IVec S_ 1 := (fun x v => Host.reduce IntOp.andi x v reducesTo_S1600000x3_S_d0_1 h_S_) main_v6 main_c_1
  let main_v8 : IVec S_ 1 := andi main_v3 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  let main_v14 : FVec F S259x128 .f32 := Host.absf main_arg5
  let main_cst_4 : FVec F S_ .f32 := constant S_ .f32 0x7F800000#32
  let main_v15 : FVec F S259x128 .f32 := broadcastInDim S259x128 ![] bcast_S_S259x128 main_cst_4
  let main_v16 : IVec S259x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S1600000x3 : Shape := ⟨2, ![1600000, 3]⟩
abbrev S1x8 : Shape := ⟨2, ![1, 8]⟩
abbrev S100000 : Shape := ⟨1, ![100000]⟩
abbrev S259x128 : Shape := ⟨2, ![259, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1600000x131 : Shape := ⟨2, ![1600000, 131]⟩
abbrev S100000x131 : Shape := ⟨2, ![100000, 131]⟩
abbrev S100000x1 : Shape := ⟨2, ![100000, 1]⟩
abbrev S1x128 : Shape := ⟨2, ![1, 128]⟩
abbrev S4000x128 : Shape := ⟨2, ![4000, 128]⟩
abbrev S4000x131 : Shape := ⟨2, ![4000, 131]⟩
abbrev S4000x259 : Shape := ⟨2, ![4000, 259]⟩

abbrev nBuf : Space → Nat
  | .hbm => 40
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x3, .f32⟩
  | .hbm, ⟨3, _⟩ => ⟨S1x8, .f32⟩
  | .hbm, ⟨4, _⟩ => ⟨S100000, .i32⟩
  | .hbm, ⟨5, _⟩ => ⟨S259x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x131, .f32⟩
  | .hbm, ⟨21, _⟩ => ⟨S_, .f32⟩
  | .hbm, ⟨22, _⟩ => ⟨S100000x131, .f32⟩
  | .hbm, ⟨23, _⟩ => ⟨S1600000x1, .i32⟩
  | .hbm, ⟨24, _⟩ => ⟨S100000x131, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x131, .f32⟩
  | .hbm, ⟨36, _⟩ => ⟨S100000x131, .f32⟩
  | .hbm, ⟨37, _⟩ => ⟨S1x128, .f32⟩
  | .hbm, ⟨38, _⟩ => ⟨S1x128, .f32⟩
  | .hbm, ⟨39, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x131, .f32⟩
  | .local _ .vmem, ⟨3, _⟩ => ⟨S4000x131, .f32⟩
  | .local _ .vmem, ⟨4, _⟩ => ⟨S259x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x131 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S259x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x128_S1600000x3_S1600000x131_d1 : Shape.Concatenates [S1600000x128, S1600000x3] S1600000x131 1
  bcast_S_S100000x131 : S_.BroadcastsInDim S100000x131 (![] : Fin 0 → Fin S100000x131.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x131_0_1 : S100000x1.BroadcastsInDim S100000x131 (![0, 1] : Fin 2 → Fin S100000x131.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  inb_S4000x131_S4000x131_0_0 : ∀ a, (![0, 0] : Fin 2 → Nat) a + S4000x131.size a ≤ S4000x131.size a
  h_S4000x131 : 0 < S4000x131.numel
  shapeCasts_S4000x131_S4000x131 : S4000x131.ShapeCasts S4000x131
  concatenates_S4000x128_S4000x131_S4000x259_d1 : Shape.Concatenates [S4000x128, S4000x131] S4000x259 1
  bitsLt_bf16_f32 : FTy.bits .bf16 < FTy.bits .f32
  inb_S259x128_S259x128_0_0 : ∀ a, (![0, 0] : Fin 2 → Nat) a + S259x128.size a ≤ S259x128.size a
  h_S259x128 : 0 < S259x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  gather_S100000x128_S1600000x1_S1600000x128_1_0_n_n_0_1_1128_wf : GatherDims.WF S100000x128 S1600000x1 S1600000x128 [1] [0] [] [0] [] 1 ![1, 128]
  scatter_S100000x131_S1600000x1_S1600000x131_1_0_0_1_wf : ScatterDims.WF S100000x131 S1600000x1 S1600000x131 [1] [0] [0] 1
  scatter_S100000_S1600000x1_S1600000_n_0_0_1_wf : ScatterDims.WF S100000 S1600000x1 S1600000 [] [0] [0] 1
  dot_S4000x259_S259x128_S4000x128_1_0_0_1_n_n_wf : DotDims.WF S4000x259 S259x128 S4000x128 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x131.size a ≤ S100000x131.size a
  hwx0_1 : ∀ i : grid0.Coords, EltTy.bits .f32 = 32 ∨ (Rect.block (s := S100000x131) S4000x131.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S259x128.size a ≤ S259x128.size a
  hwx0_2 : ∀ i : grid0.Coords, EltTy.bits .f32 = 32 ∨ (Rect.block (s := S259x128) S259x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x131_S1600000x1_S1600000x131_1_0_0_1 : ScatterDims S100000x131 S1600000x1 S1600000x131 where
  updateWindowDims := [1]
  insertedWindowDims := [0]
  scatterDimsToOperandDims := [0]
  indexVectorDim := 1
  wf := scatter_S100000x131_S1600000x1_S1600000x131_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x259_S259x128_S4000x128_1_0_0_1_n_n : DotDims S4000x259 S259x128 S4000x128 where
  lhsContracting := [1]
  rhsContracting := [0]
  lhsNonContracting := [0]
  rhsNonContracting := [1]
  lhsBatch := []
  rhsBatch := []
  wf := dot_S4000x259_S259x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4000x131.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S259x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x3 : Shape := ⟨2, ![1600000, 3]⟩
abbrev S1x8 : Shape := ⟨2, ![1, 8]⟩
abbrev S100000 : Shape := ⟨1, ![100000]⟩
abbrev S259x128 : Shape := ⟨2, ![259, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1600000x131 : Shape := ⟨2, ![1600000, 131]⟩
abbrev S100000x131 : Shape := ⟨2, ![100000, 131]⟩
abbrev S100000x1 : Shape := ⟨2, ![100000, 1]⟩
abbrev S100000x259 : Shape := ⟨2, ![100000, 259]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x3, .f32⟩
  | .hbm, ⟨3, _⟩ => ⟨S1x8, .f32⟩
  | .hbm, ⟨4, _⟩ => ⟨S100000, .i32⟩
  | .hbm, ⟨5, _⟩ => ⟨S259x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x131, .f32⟩
  | .hbm, ⟨23, _⟩ => ⟨S_, .f32⟩
  | .hbm, ⟨24, _⟩ => ⟨S100000x131, .f32⟩
  | .hbm, ⟨25, _⟩ => ⟨S1600000x1, .i32⟩
  | .hbm, ⟨26, _⟩ => ⟨S100000x131, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x131, .f32⟩
  | .hbm, ⟨38, _⟩ => ⟨S100000x131, .f32⟩
  | .hbm, ⟨39, _⟩ => ⟨S100000x259, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x128_S1600000x3_S1600000x131_d1 : Shape.Concatenates [S1600000x128, S1600000x3] S1600000x131 1
  bcast_S_S100000x131 : S_.BroadcastsInDim S100000x131 (![] : Fin 0 → Fin S100000x131.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x131_0_1 : S100000x1.BroadcastsInDim S100000x131 (![0, 1] : Fin 2 → Fin S100000x131.rank)
  concatenates_S100000x128_S100000x131_S100000x259_d1 : Shape.Concatenates [S100000x128, S100000x131] S100000x259 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x128_S1600000x1_S1600000x128_1_0_n_n_0_1_1128_wf : GatherDims.WF S100000x128 S1600000x1 S1600000x128 [1] [0] [] [0] [] 1 ![1, 128]
  scatter_S100000x131_S1600000x1_S1600000x131_1_0_0_1_wf : ScatterDims.WF S100000x131 S1600000x1 S1600000x131 [1] [0] [0] 1
  scatter_S100000_S1600000x1_S1600000_n_0_0_1_wf : ScatterDims.WF S100000 S1600000x1 S1600000 [] [0] [0] 1
  dot_S100000x259_S259x128_S100000x128_1_0_0_1_n_n_wf : DotDims.WF S100000x259 S259x128 S100000x128 [1] [0] [0] [1] [] []
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x131_S1600000x1_S1600000x131_1_0_0_1 : ScatterDims S100000x131 S1600000x1 S1600000x131 where
  updateWindowDims := [1]
  insertedWindowDims := [0]
  scatterDimsToOperandDims := [0]
  indexVectorDim := 1
  wf := scatter_S100000x131_S1600000x1_S1600000x131_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x259_S259x128_S100000x128_1_0_0_1_n_n : DotDims S100000x259 S259x128 S100000x128 where
  lhsContracting := [1]
  rhsContracting := [0]
  lhsNonContracting := [0]
  rhsNonContracting := [1]
  lhsBatch := []
  rhsBatch := []
  wf := dot_S100000x259_S259x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RowNet.lean ====
/-
  A two-layer network, read one output entry at a time.

  The network takes an input matrix with 259 columns, given as two matrices laid side by side (x with 128 columns, g with 131),
  multiplies it by W1 [259, 128], adds a bias b1 to every row, cuts the result off below at the float zero, multiplies by
  W2 [128, 128] and adds a bias b2 to every row.  Entry (r, q) of the result depends on row r of the input only:

      out (r, q) = (∑ j, max ((∑ k, [x | g] (r, k) · W1 (k, j)) + b1 j) 0 · W2 (j, q)) + b2 q.

  Both sums are the extended reals' own, in one order, so nothing about finiteness is used.  The number of rows is any n: the
  same reading serves a block of rows and the whole matrix.
-/
import Idealize.ShloMosaic.Lib.ValueIdx
import Idealize.ShloMosaic.Lib.Pipeline.Value
import Idealize.ShloMosaic.Lib.StackMember
import Idealize.ShloMosaic.Lib.KernelVsHost
import Idealize.ShloMosaic.PureOps.Ideal.Laws

noncomputable section

open scoped BigOperators

namespace Cert.RowNet

open Idealize.ShloMosaic Idealize.ShloMosaic.ValueIdx Idealize.ShloMosaic.StackMember

/-- Row r of the joined matrix [x | g]: column k of x for k below 128, column k − 128 of g from there on. -/
def joined {n : Nat} (x : (⟨2, ![n, 128]⟩ : Shape).Idx → EReal) (g : (⟨2, ![n, 131]⟩ : Shape).Idx → EReal) (r : Fin n)
    (k : Fin 259) : EReal :=
  if h : k.val < 128 then x (ix2 r ⟨k.val, h⟩) else g (ix2 r ⟨k.val - 128, by have := k.isLt; omega⟩)

/-- The concatenation of x and g along the columns, at (r, k), is the joined row r at k. -/
theorem concat_apply {n : Nat} (x : (⟨2, ![n, 128]⟩ : Shape).Idx → EReal) (g : (⟨2, ![n, 131]⟩ : Shape).Idx → EReal)
    (h : Shape.Concatenates [⟨2, ![n, 128]⟩, ⟨2, ![n, 131]⟩] ⟨2, ![n, 259]⟩ 1) (r : Fin n) (k : Fin 259) :
    concatenate ⟨2, ![n, 259]⟩ 1 [⟨⟨2, ![n, 128]⟩, x⟩, ⟨⟨2, ![n, 131]⟩, g⟩] h (ix2 r k) = joined x g r k := by
  unfold joined
  split
  · next hk =>
    exact concatenate_pair_apply_left (1 : Fin 2) x g h (ix2 r k) rfl (ix2 r ⟨k.val, hk⟩)
      (fun b => match b with | ⟨0, _⟩ => rfl | ⟨1, _⟩ => rfl)
  · next hk =>
    exact concatenate_pair_apply_right (1 : Fin 2) x g h (ix2 r k) rfl rfl (ix2 r ⟨k.val - 128, by have := k.isLt; omega⟩)
      (fun b hb => match b, hb with | ⟨0, _⟩, _ => rfl | ⟨1, _⟩, hb => absurd rfl hb)
      (by show (k.val - 128) + 128 = k.val; omega)

/-- One entry of the network's output, from one row h of its input: column q of
    max (h · W1 + b1) 0 · W2 + b2, the cut-off being at the float zero. -/
def entry (h : Fin 259 → EReal) (W1 : (⟨2, ![259, 128]⟩ : Shape).Idx → EReal) (b1 : Fin 128 → EReal)
    (W2 : (⟨2, ![128, 128]⟩ : Shape).Idx → EReal) (b2 : Fin 128 → EReal) (q : Fin 128) : EReal :=
  (∑ j : Fin 128, max ((∑ k : Fin 259, h k * W1 (ix2 k j)) + b1 j) (Ideal.ofBits .f32 0x00000000#32) * W2 (ix2 j q)) + b2 q

/-- The network on n rows, spelt with the host's two matrix products, read at (r, q): the entry of row r of [x | g].
    B1 and B2 are the biases laid along every row and Z the zero laid everywhere, however each was made; the float formats
    the products' operands are tagged with play no part (a change of format is the identity on extended reals). -/
theorem net_apply {n : Nat} {φ₁ φ₂ φ₃ φ₄ : FTy}
    (hcat : Shape.Concatenates [⟨2, ![n, 128]⟩, ⟨2, ![n, 131]⟩] ⟨2, ![n, 259]⟩ 1)
    (x : (⟨2, ![n, 128]⟩ : Shape).Idx → EReal) (g : (⟨2, ![n, 131]⟩ : Shape).Idx → EReal)
    (W1 : (⟨2, ![259, 128]⟩ : Shape).Idx → EReal) (B1 Z : (⟨2, ![n, 128]⟩ : Shape).Idx → EReal)
    (W2 : (⟨2, ![128, 128]⟩ : Shape).Idx → EReal) (B2 : (⟨2, ![n, 128]⟩ : Shape).Idx → EReal)
    (b1 b2 : Fin 128 → EReal) (hB1 : ∀ (r : Fin n) (j : Fin 128), B1 (ix2 r j) = b1 j)
    (hZ : ∀ (r : Fin n) (j : Fin 128), Z (ix2 r j) = Ideal.ofBits .f32 0x00000000#32)
    (hB2 : ∀ (r : Fin n) (j : Fin 128), B2 (ix2 r j) = b2 j) (r : Fin n) (q : Fin 128) :
    (addf (Host.dotGeneral (φ₁ := φ₃) (φ₂ := φ₄) (DotDims.plain n 128 128) none
        ((maximumf (addf (Host.dotGeneral (φ₁ := φ₁) (φ₂ := φ₂) (DotDims.plain n 259 128) none
          ((concatenate ⟨2, ![n, 259]⟩ 1 [⟨⟨2, ![n, 128]⟩, x⟩, ⟨⟨2, ![n, 131]⟩, g⟩] hcat) : FVec Ideal ⟨2, ![n, 259]⟩ φ₁)
          (W1 : FVec Ideal ⟨2, ![259, 128]⟩ φ₂)) (B1 : FVec Ideal ⟨2, ![n, 128]⟩ .f32))
          (Z : FVec Ideal ⟨2, ![n, 128]⟩ .f32)) : FVec Ideal ⟨2, ![n, 128]⟩ φ₃)
        (W2 : FVec Ideal ⟨2, ![128, 128]⟩ φ₄)) (B2 : FVec Ideal ⟨2, ![n, 128]⟩ .f32)) (ix2 r q)
      = entry (joined x g r) W1 b1 W2 b2 q := by
  rw [addf_apply, dotGeneral_plain_apply, hB2]
  unfold entry
  refine congrArg (· + b2 q) (Finset.sum_congr rfl fun j _ => ?_)
  rw [maximumf_apply, addf_apply, dotGeneral_plain_apply, hB1, hZ]
  refine congrArg (fun s => max (s + b1 j) (Ideal.ofBits .f32 0x00000000#32) * W2 (ix2 j q)) (Finset.sum_congr rfl fun k _ => ?_)
  rw [concat_apply]

end Cert.RowNet

end
-- ==== Proof.BlockNet.lean ====
/-
  The kernel body's value at one entry of its output block.

  At a grid point the body holds a block of 4000 rows of x, the same 4000 rows of g, the weights W1, W2 whole and the two
  biases as one-row matrices.  It joins the two row blocks side by side, multiplies by W1 into a zero accumulator, adds the
  first bias along every row, cuts off at zero, multiplies by W2 into a zero accumulator and adds the second bias.  On
  extended reals the roundings to the narrower float format on the way into each product are the identity, and a product
  accumulated into zeros is the plain product; so entry (p, q) of what the body stores is the network's entry for row p
  of the joined blocks (RowNet.entry).
-/
import proofs.«119800_j85478439125101_1_alg».proof.Proof.Gen.KernelIdeal.Skeleton
import proofs.«119800_j85478439125101_1_alg».proof.Proof.RowNet

noncomputable section

open scoped BigOperators

namespace Cert.KernelIdeal.Block

open Cert.KernelIdeal Cert.KernelIdeal.Gen Idealize.ShloMosaic Idealize.ShloMosaic.ValueIdx

/-- The first product's dimension numbers are the plain [4000, 259] × [259, 128] product's. -/
theorem dot1_plain : dot_S4000x259_S259x128_S4000x128_1_0_0_1_n_n = DotDims.plain 4000 259 128 := rfl
/-- The second product's dimension numbers are the plain [4000, 128] × [128, 128] product's. -/
theorem dot2_plain : dot_S4000x128_S128x128_S4000x128_1_0_0_1_n_n = DotDims.plain 4000 128 128 := rfl

/-- A one-row matrix laid along 4000 rows, at (p, j), is the row at (0, j). -/
theorem rows_apply (v : (⟨2, ![1, 128]⟩ : Shape).Idx → EReal) (h : S1x128.Broadcasts S4000x128) (p : Fin 4000) (j : Fin 128) :
    broadcastTo S4000x128 v h (ix2 p j) = v (ix2 (0 : Fin 1) j) :=
  broadcastTo_apply v h (ix2 p j) (ix2 (0 : Fin 1) j) (fun a => match a with
    | ⟨0, _⟩ => rfl
    | ⟨1, _⟩ => by show j.val = if (128 : Nat) = 1 then 0 else j.val; rw [if_neg (by decide)])

/-- Entry (p, q) of the value the body stores, from the blocks it loaded. -/
theorem pay_apply (v0 : Vec Ideal S4000x128 .f32) (v1 : Vec Ideal S4000x131 .f32) (v5 : Vec Ideal S259x128 .f32)
    (v8 : Vec Ideal S1x128 .f32) (v15 : Vec Ideal S128x128 .f32) (v18 : Vec Ideal S1x128 .f32) (p : Fin 4000) (q : Fin 128) :
    k0_pay1 (F := Ideal) v0 v1 v5 v8 v15 v18 (ix2 p q)
      = RowNet.entry (RowNet.joined v0 v1 p) v5 (fun j => v8 (ix2 (0 : Fin 1) j)) v15 (fun j => v18 (ix2 (0 : Fin 1) j)) q := by
  unfold k0_pay1
  rw [shapeCast_self, shapeCast_self, shapeCast_self, dot1_plain, dot2_plain, matmul_zero_eq_dotGeneral, matmul_zero_eq_dotGeneral]
  exact RowNet.net_apply concatenates_S4000x128_S4000x131_S4000x259_d1 v0 v1 v5
    (broadcastTo S4000x128 v8 broadcasts_S1x128_S4000x128) (broadcast S4000x128 (FloatOps.ofBits (F := Ideal) .f32 0x00000000#32)) v15
    (broadcastTo S4000x128 v18 broadcasts_S1x128_S4000x128) (fun j => v8 (ix2 (0 : Fin 1) j)) (fun j => v18 (ix2 (0 : Fin 1) j))
    (fun r j => rows_apply v8 _ r j) (fun _ _ => rfl) (fun r j => rows_apply v18 _ r j) p q

end Cert.KernelIdeal.Block

end
-- ==== Proof.KernelArray.lean ====
/-
  The kernel's result array as one function of the arrays the launch finds.

  The launch runs the body at 25 grid points; point t holds rows 4000·t … 4000·t + 3999 of x and of the aggregated messages g,
  the weights and the biases whole, and writes back rows 4000·t … 4000·t + 3999 of the result.  Entry (p, q) of what point t
  writes is the network's entry for row p of the joined blocks (Block.pay_apply), and row p of the blocks is row 4000·t + p of
  the arrays; the 25 blocks cover the 100000 rows.  So the result array holds, at (r, q), the network's entry for row r of
  [x | g].
-/
import proofs.«119800_j85478439125101_1_alg».proof.Proof.Gen.KernelIdeal.Value
import proofs.«119800_j85478439125101_1_alg».proof.Proof.BlockNet

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits -/

/-- The index maps over the grid: the row-blocked windows (x, g, the result) are at block row t, everything else at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 25 := by
  have h : t.val < cfg0.N := t.isLt
  have hN : cfg0.N = 25 := N_0
  omega

/-! ## Reading an array through a window's block -/

/-- Row p of the block of x's window at point t is row 4000·t + p of the array. -/
theorem read_blk0 (c : Dev nD) (A : Vec Ideal S100000x128 .f32) (t : Fin cfg0.N) (p : Fin 4000) (k : Fin 128) (i : S100000x128.Idx)
    (h0 : (i 0).val = 4000 * t.val + p.val) (h1 : (i 1).val = k.val) :
    (((cfg0.win 0).blk t).view.read (Elt Ideal) A : Vec Ideal S4000x128 .f32) (ix2 p k) = A i := by
  obtain ⟨e0, e1, -⟩ := idx_facts t
  rw [View.read_apply]
  refine congrArg A (funext fun a => Fin.ext ?_)
  match a with
  | ⟨0, _⟩ => show win0_0.index t (0 : Fin 2) * 4000 + 1 * p.val = (i 0).val; rw [e0, h0]; omega
  | ⟨1, _⟩ => show win0_0.index t (1 : Fin 2) * 128 + 1 * k.val = (i 1).val; rw [e1, h1]; omega

/-- Row p of the block of g's window at point t is row 4000·t + p of the array. -/
theorem read_blk1 (c : Dev nD) (A : Vec Ideal S100000x131 .f32) (t : Fin cfg0.N) (p : Fin 4000) (k : Fin 131) (i : S100000x131.Idx)
    (h0 : (i 0).val = 4000 * t.val + p.val) (h1 : (i 1).val = k.val) :
    (((cfg0.win 1).blk t).view.read (Elt Ideal) A : Vec Ideal S4000x131 .f32) (ix2 p k) = A i := by
  obtain ⟨-, -, e0, e1, -⟩ := idx_facts t
  rw [View.read_apply]
  refine congrArg A (funext fun a => Fin.ext ?_)
  match a with
  | ⟨0, _⟩ => show win0_1.index t (0 : Fin 2) * 4000 + 1 * p.val = (i 0).val; rw [e0, h0]; omega
  | ⟨1, _⟩ => show win0_1.index t (1 : Fin 2) * 131 + 1 * k.val = (i 1).val; rw [e1, h1]; omega

/-- W1's window holds the whole array at every point. -/
theorem read_blk2 (c : Dev nD) (A : Vec Ideal S259x128 .f32) (t : Fin cfg0.N) (p : Fin 259) (k : Fin 128) (i : S259x128.Idx)
    (h0 : (i 0).val = p.val) (h1 : (i 1).val = k.val) :
    (((cfg0.win 2).blk t).view.read (Elt Ideal) A : Vec Ideal S259x128 .f32) (ix2 p k) = A i := by
  obtain ⟨-, -, -, -, e0, e1, -⟩ := idx_facts t
  rw [View.read_apply]
  refine congrArg A (funext fun a => Fin.ext ?_)
  match a with
  | ⟨0, _⟩ => show win0_2.index t (0 : Fin 2) * 259 + 1 * p.val = (i 0).val; rw [e0, h0]; omega
  | ⟨1, _⟩ => show win0_2.index t (1 : Fin 2) * 128 + 1 * k.val = (i 1).val; rw [e1, h1]; omega

/-- The first bias row's window holds the whole row at every point. -/
theorem read_blk3 (c : Dev nD) (A : Vec Ideal S1x128 .f32) (t : Fin cfg0.N) (p : Fin 1) (k : Fin 128) (i : S1x128.Idx)
    (h0 : (i 0).val = p.val) (h1 : (i 1).val = k.val) :
    (((cfg0.win 3).blk t).view.read (Elt Ideal) A : Vec Ideal S1x128 .f32) (ix2 p k) = A i := by
  obtain ⟨-, -, -, -, -, -, e0, e1, -⟩ := idx_facts t
  rw [View.read_apply]
  refine congrArg A (funext fun a => Fin.ext ?_)
  match a with
  | ⟨0, _⟩ => show win0_3.index t (0 : Fin 2) * 1 + 1 * p.val = (i 0).val; rw [e0, h0]; omega
  | ⟨1, _⟩ => show win0_3.index t (1 : Fin 2) * 128 + 1 * k.val = (i 1).val; rw [e1, h1]; omega

/-- W2's window holds the whole array at every point. -/
theorem read_blk4 (c : Dev nD) (A : Vec Ideal S128x128 .f32) (t : Fin cfg0.N) (p : Fin 128) (k : Fin 128) (i : S128x128.Idx)
    (h0 : (i 0).val = p.val) (h1 : (i 1).val = k.val) :
    (((cfg0.win 4).blk t).view.read (Elt Ideal) A : Vec Ideal S128x128 .f32) (ix2 p k) = A i := by
  obtain ⟨-, -, -, -, -, -, -, -, e0, e1, -⟩ := idx_facts t
  rw [View.read_apply]
  refine congrArg A (funext fun a => Fin.ext ?_)
  match a with
  | ⟨0, _⟩ => show win0_4.index t (0 : Fin 2) * 128 + 1 * p.val = (i 0).val; rw [e0, h0]; omega
  | ⟨1, _⟩ => show win0_4.index t (1 : Fin 2) * 128 + 1 * k.val = (i 1).val; rw [e1, h1]; omega

/-- The second bias row's window holds the whole row at every point. -/
theorem read_blk5 (c : Dev nD) (A : Vec Ideal S1x128 .f32) (t : Fin cfg0.N) (p : Fin 1) (k : Fin 128) (i : S1x128.Idx)
    (h0 : (i 0).val = p.val) (h1 : (i 1).val = k.val) :
    (((cfg0.win 5).blk t).view.read (Elt Ideal) A : Vec Ideal S1x128 .f32) (ix2 p k) = A i := by
  obtain ⟨-, -, -, -, -, -, -, -, -, -, e0, e1, -⟩ := idx_facts t
  rw [View.read_apply]
  refine congrArg A (funext fun a => Fin.ext ?_)
  match a with
  | ⟨0, _⟩ => show win0_5.index t (0 : Fin 2) * 1 + 1 * p.val = (i 0).val; rw [e0, h0]; omega
  | ⟨1, _⟩ => show win0_5.index t (1 : Fin 2) * 128 + 1 * k.val = (i 1).val; rw [e1, h1]; omega

/-- A whole-array window's block, as a function, is the array. -/
theorem whole_blk2 (c : Dev nD) (A : Vec Ideal S259x128 .f32) (t : Fin cfg0.N) :
    (((cfg0.win 2).blk t).view.read (Elt Ideal) A : Vec Ideal S259x128 .f32) = A :=
  funext fun y => by
    obtain ⟨p, k, rfl⟩ : ∃ (p : Fin 259) (k : Fin 128), y = ix2 p k := ⟨y 0, y 1, eq_ix2 y⟩
    exact read_blk2 c A t p k (ix2 p k) rfl rfl
/-- The same for the first bias row's window. -/
theorem whole_blk3 (c : Dev nD) (A : Vec Ideal S1x128 .f32) (t : Fin cfg0.N) :
    (((cfg0.win 3).blk t).view.read (Elt Ideal) A : Vec Ideal S1x128 .f32) = A :=
  funext fun y => by
    obtain ⟨p, k, rfl⟩ : ∃ (p : Fin 1) (k : Fin 128), y = ix2 p k := ⟨y 0, y 1, eq_ix2 y⟩
    exact read_blk3 c A t p k (ix2 p k) rfl rfl
/-- The same for W2's window. -/
theorem whole_blk4 (c : Dev nD) (A : Vec Ideal S128x128 .f32) (t : Fin cfg0.N) :
    (((cfg0.win 4).blk t).view.read (Elt Ideal) A : Vec Ideal S128x128 .f32) = A :=
  funext fun y => by
    obtain ⟨p, k, rfl⟩ : ∃ (p : Fin 128) (k : Fin 128), y = ix2 p k := ⟨y 0, y 1, eq_ix2 y⟩
    exact read_blk4 c A t p k (ix2 p k) rfl rfl
/-- The same for the second bias row's window. -/
theorem whole_blk5 (c : Dev nD) (A : Vec Ideal S1x128 .f32) (t : Fin cfg0.N) :
    (((cfg0.win 5).blk t).view.read (Elt Ideal) A : Vec Ideal S1x128 .f32) = A :=
  funext fun y => by
    obtain ⟨p, k, rfl⟩ : ∃ (p : Fin 1) (k : Fin 128), y = ix2 p k := ⟨y 0, y 1, eq_ix2 y⟩
    exact read_blk5 c A t p k (ix2 p k) rfl rfl

/-- Row p of the joined blocks at point t is row 4000·t + p of the joined arrays. -/
theorem joined_blk (c : Dev nD) (X : Vec Ideal S100000x128 .f32) (G : Vec Ideal S100000x131 .f32) (t : Fin cfg0.N) (p : Fin 4000)
    (r : Fin 100000) (hr : r.val = 4000 * t.val + p.val) :
    RowNet.joined (((cfg0.win 0).blk t).view.read (Elt Ideal) X : Vec Ideal S4000x128 .f32)
        (((cfg0.win 1).blk t).view.read (Elt Ideal) G : Vec Ideal S4000x131 .f32) p
      = RowNet.joined X G r := by
  funext k
  unfold RowNet.joined
  split
  · exact read_blk0 c X t p _ _ hr rfl
  · exact read_blk1 c G t p _ _ hr rfl

/-! ## The result as a function of the arrays, and what a point writes back -/

/-- The network on the whole arrays: entry (r, q) is the network's entry for row r of [X | G], the biases read off their
    one-row matrices. -/
def net (X : Vec Ideal S100000x128 .f32) (G : Vec Ideal S100000x131 .f32) (W1 : Vec Ideal S259x128 .f32) (R1 : Vec Ideal S1x128 .f32)
    (W2 : Vec Ideal S128x128 .f32) (R2 : Vec Ideal S1x128 .f32) : Vec Ideal S100000x128 .f32 := fun i =>
  RowNet.entry (RowNet.joined X G ⟨(i 0).val, (i 0).isLt⟩) W1 (fun j => R1 (ix2 (0 : Fin 1) j)) W2 (fun j => R2 (ix2 (0 : Fin 1) j))
    ⟨(i 1).val, (i 1).isLt⟩

/-- The network on the arrays at (r, q). -/
theorem net_ix2 (X : Vec Ideal S100000x128 .f32) (G : Vec Ideal S100000x131 .f32) (W1 : Vec Ideal S259x128 .f32) (R1 : Vec Ideal S1x128 .f32)
    (W2 : Vec Ideal S128x128 .f32) (R2 : Vec Ideal S1x128 .f32) (r : Fin 100000) (q : Fin 128) :
    net X G W1 R1 W2 R2 (ix2 r q)
      = RowNet.entry (RowNet.joined X G r) W1 (fun j => R1 (ix2 (0 : Fin 1) j)) W2 (fun j => R2 (ix2 (0 : Fin 1) j)) q := rfl

/-- Entry (p, q) of what the body computes from the blocks at point t is entry (4000·t + p, q) of the network on the arrays. -/
theorem body_blk (c : Dev nD) (X : Vec Ideal S100000x128 .f32) (G : Vec Ideal S100000x131 .f32) (W1 : Vec Ideal S259x128 .f32)
    (R1 : Vec Ideal S1x128 .f32) (W2 : Vec Ideal S128x128 .f32) (R2 : Vec Ideal S1x128 .f32) (t : Fin cfg0.N) (p : Fin 4000) (q : Fin 128)
    (i : S100000x128.Idx) (h0 : (i 0).val = 4000 * t.val + p.val) (h1 : (i 1).val = q.val) :
    k0_pay1 (F := Ideal) (((cfg0.win 0).blk t).view.read (Elt Ideal) X) (((cfg0.win 1).blk t).view.read (Elt Ideal) G)
        (((cfg0.win 2).blk t).view.read (Elt Ideal) W1) (((cfg0.win 3).blk t).view.read (Elt Ideal) R1)
        (((cfg0.win 4).blk t).view.read (Elt Ideal) W2) (((cfg0.win 5).blk t).view.read (Elt Ideal) R2) (ix2 p q)
      = net X G W1 R1 W2 R2 i := by
  refine (Block.pay_apply _ _ _ _ _ _ p q).trans ?_
  rw [whole_blk2 c W1 t, whole_blk3 c R1 t, whole_blk4 c W2 t, whole_blk5 c R2 t,
    joined_blk c X G t p ⟨(i 0).val, (i 0).isLt⟩ h0]
  unfold net
  exact congrArg (RowNet.entry (RowNet.joined X G ⟨(i 0).val, (i 0).isLt⟩) W1 (fun j => R1 (ix2 (0 : Fin 1) j)) W2
    (fun j => R2 (ix2 (0 : Fin 1) j))) (Fin.ext h1.symm)

/-- The result array: the network on the arrays the launch finds. -/
def result (c : Dev nD) : Vec Ideal S100000x128 .f32 :=
  net (V m c main_arg0) (V m c main_v21) (V m c main_arg5) (V m c main_v22) (V m c main_arg7) (V m c main_v23)

/-- WHAT POINT t WRITES BACK is block t of `result`. -/
theorem flushed_eq (c : Dev nD) (t : Fin cfg0.N) :
    (dats m 0 c).flushed 6 t = ((cfg0.win 6).blk t).view.read (Elt Ideal) (result m c) := by
  obtain ⟨-, -, -, -, -, -, -, -, -, -, -, -, e0, e1⟩ := idx_facts t
  rw [flushed6]
  unfold out0_6 iblk
  rw [View.canon_unit_zero hz]
  simp only [View.ld_unit_zero (S := S4000x128) hz, View.ld_unit_zero (S := S4000x131) hz, View.ld_unit_zero (S := S259x128) hz,
    View.ld_unit_zero (S := S1x128) hz, View.ld_unit_zero (S := S128x128) hz]
  funext j
  obtain ⟨p, q, rfl⟩ : ∃ (p : Fin 4000) (q : Fin 128), j = (ix2 p q : S4000x128.Idx) := ⟨j 0, j 1, @eq_ix2 4000 128 j⟩
  rw [View.read_apply]
  unfold result
  refine body_blk c _ _ _ _ _ _ t p q _ ?_ ?_
  · show win0_6.index t (0 : Fin 2) * 4000 + 1 * p.val = _; rw [e0]; omega
  · show win0_6.index t (1 : Fin 2) * 128 + 1 * q.val = _; rw [e1]; omega

/-- An index of the result array is in point t's block iff each coordinate is in the block's range on its axis. -/
theorem mem_blk (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v24).slice (win0_6.rect t)).set ↔ _
  rw [View.set_slice_whole, Rect.mem_set_unit]
  exact Iff.rfl

/-- Every index of the result array lies in the block of the point its row falls to. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_6 _, ?_⟩
  obtain ⟨-, -, -, -, -, -, -, -, -, -, -, -, e0, e1⟩ := idx_facts ⟨(i 0).val / 4000, by rw [hN]; omega⟩
  rw [mem_blk]
  intro a
  match a with
  | ⟨0, _⟩ =>
    show win0_6.index _ (0 : Fin 2) * 4000 ≤ (i 0).val ∧ (i 0).val < win0_6.index _ (0 : Fin 2) * 4000 + 4000
    rw [e0]; show (i 0).val / 4000 * 4000 ≤ (i 0).val ∧ (i 0).val < (i 0).val / 4000 * 4000 + 4000; omega
  | ⟨1, _⟩ =>
    show win0_6.index _ (1 : Fin 2) * 128 ≤ (i 1).val ∧ (i 1).val < win0_6.index _ (1 : Fin 2) * 128 + 128
    rw [e1]; omega

/-- THE ARRAY after the run is `result`. -/
theorem final (c : Dev nD) : (dats m 0 c).arrAt 6 cfg0.N = result m c :=
  (dats m 0 c).arrAt_eq_of_cover 6 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Whole

end
-- ==== Proof.RefNet.lean ====
/-
  The reference's result at one entry.

  The reference joins x [100000, 128] with the aggregated messages g [100000, 131] side by side, multiplies by W1, adds the
  bias b1 along every row, cuts off at zero, multiplies by W2 and adds b2 along every row.  Entry (r, q) of its result is
  the network's entry for row r of the joined matrix (RowNet.entry); the aggregated messages g enter only through that
  row and are never opened here.
-/
import proofs.«119800_j85478439125101_1_alg».proof.Proof.Gen.ReferenceIdeal.Read
import proofs.«119800_j85478439125101_1_alg».proof.Proof.RowNet

noncomputable section

open scoped BigOperators

namespace Cert.ReferenceIdeal.Net

open Cert.ReferenceIdeal Cert.ReferenceIdeal.Gen Cert.ReferenceIdeal.Read Idealize.ShloMosaic Idealize.ShloMosaic.ValueIdx

/-- The first product's dimension numbers are the plain [100000, 259] × [259, 128] product's. -/
theorem dot1_plain : dot_S100000x259_S259x128_S100000x128_1_0_0_1_n_n = DotDims.plain 100000 259 128 := rfl
/-- The second product's dimension numbers are the plain [100000, 128] × [128, 128] product's. -/
theorem dot2_plain : dot_S100000x128_S128x128_S100000x128_1_0_0_1_n_n = DotDims.plain 100000 128 128 := rfl

/-- A vector of 128 entries, made a one-row matrix and laid along 100000 rows, at (r, j), is its entry j. -/
theorem rows_apply (b : (⟨1, ![128]⟩ : Shape).Idx → EReal) (r : Fin 100000) (j : Fin 128) :
    broadcastInDim S100000x128 ![0, 1] bcast_S1x128_S100000x128_0_1 (broadcastInDim S1x128 ![1] bcast_S128_S1x128_1 b) (ix2 r j)
      = b (ix1 j) := by
  rw [broadcastInDim_oneRow_apply bcast_S1x128_S100000x128_0_1 _ r j]
  exact broadcastInDim_apply ![1] bcast_S128_S1x128_1 b (ix2 (0 : Fin 1) j) (ix1 j) (fun a => match a with
    | ⟨0, _⟩ => by show j.val = if (128 : Nat) = 1 then 0 else j.val; rw [if_neg (by decide)])

/-- The float zero laid everywhere, at any entry, is the float zero. -/
theorem zeros_apply (r : Fin 100000) (j : Fin 128) :
    broadcastInDim S100000x128 ![] bcast_S_S100000x128 (constant (F := Ideal) S_ .f32 0x00000000#32) (ix2 r j)
      = Ideal.ofBits .f32 0x00000000#32 :=
  broadcastInDim_apply ![] bcast_S_S100000x128 (constant (F := Ideal) S_ .f32 0x00000000#32) (ix2 r j) ix0 (fun a => a.elim0)

/-- Entry (r, q) of the reference's result, with g the aggregated messages as the reference computes them. -/
theorem result_apply (x0 : (⟨S100000x128, .f32⟩ : BufTy).Contents (Elt Ideal)) (x1 : (⟨S2x1600000, .i32⟩ : BufTy).Contents (Elt Ideal))
    (x2 : (⟨S1600000x3, .f32⟩ : BufTy).Contents (Elt Ideal)) (x5 : (⟨S259x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (r : Fin 100000) (q : Fin 128) :
    val_main_v33 (F := Ideal) x0 x1 x2 x5 x6 x7 x8 (ix2 r q)
      = RowNet.entry (RowNet.joined x0 (val_main_v23 (F := Ideal) x0 x1 x2) r) x5 (fun j => x6 (ix1 j)) x7 (fun j => x8 (ix1 j)) q := by
  unfold val_main_v33 val_main_v32 val_main_v31 val_main_v30 val_main_v29 val_main_call0_v0 val_main_call0_cst val_main_v28
    val_main_v27 val_main_v26 val_main_v25 val_main_v24
  generalize val_main_v23 (F := Ideal) x0 x1 x2 = g
  rw [dot1_plain, dot2_plain]
  have h := RowNet.net_apply (n := 100000) (φ₁ := .f32) (φ₂ := .f32) (φ₃ := .f32) (φ₄ := .f32) concatenates_S100000x128_S100000x131_S100000x259_d1 x0 g x5
    (broadcastInDim S100000x128 ![0, 1] bcast_S1x128_S100000x128_0_1 (broadcastInDim S1x128 ![1] bcast_S128_S1x128_1 x6))
    (broadcastInDim S100000x128 ![] bcast_S_S100000x128 (constant (F := Ideal) S_ .f32 0x00000000#32)) x7
    (broadcastInDim S100000x128 ![0, 1] bcast_S1x128_S100000x128_0_1 (broadcastInDim S1x128 ![1] bcast_S128_S1x128_1 x8))
    (fun j => x6 (ix1 j)) (fun j => x8 (ix1 j))
    (fun r j => rows_apply x6 r j) zeros_apply (fun r j => rows_apply x8 r j) r q
  exact h

end Cert.ReferenceIdeal.Net

end
-- ==== Proof.Prefix.lean ====
/-
  What the launch finds in the windows' arrays that the host computed.

  Before the launch the program computes the aggregated messages from x, the edge list and the edge attributes — gather the
  source rows, join the edge attributes, add up per node, divide by the count cut off below at one — with the very operations
  the reference uses for the same purpose, on the same arguments; and it reshapes each bias vector into a one-row matrix.  So the
  aggregated messages the launch finds are the reference's term of the same arguments (never opened: one function of the
  arguments on both sides), and entry (0, j) of a bias row is entry j of the bias.
-/
import proofs.«119800_j85478439125101_1_alg».proof.Proof.Gen.KernelIdeal.Frame
import proofs.«119800_j85478439125101_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Prefix

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

set_option maxHeartbeats 4000000 in
/-- The aggregated messages the launch finds are the reference's aggregated messages of the same three arguments. -/
theorem messages_eq (c : Dev nD) :
    (V m c main_v21 : S100000x131.Idx → Elt F .f32)
      = Cert.ReferenceIdeal.Read.val_main_v23 (F := F) (m ((c : Thread nD τ).loc main_arg0)) (m ((c : Thread nD τ).loc main_arg1))
          (m ((c : Thread nD τ).loc main_arg2)) := by
  dsimp only [V, hostOps0]
  after_results_simp
  rfl

set_option maxHeartbeats 4000000 in
/-- The first bias row the launch finds is the bias vector reshaped. -/
theorem row1_eq (c : Dev nD) :
    (V m c main_v22 : S1x128.Idx → Elt F .f32) = shapeCast S1x128 (m ((c : Thread nD τ).loc main_arg6)) shapeCasts_S128_S1x128 := by
  dsimp only [V, hostOps0]
  after_results_simp
  rfl

set_option maxHeartbeats 4000000 in
/-- The second bias row the launch finds is the bias vector reshaped. -/
theorem row2_eq (c : Dev nD) :
    (V m c main_v23 : S1x128.Idx → Elt F .f32) = shapeCast S1x128 (m ((c : Thread nD τ).loc main_arg8)) shapeCasts_S128_S1x128 := by
  dsimp only [V, hostOps0]
  after_results_simp
  rfl

/-- A vector of 128 entries reshaped into one row, at (0, j), is its entry j. -/
theorem row_apply {α : Type} (b : S128.Idx → α) (j : Fin 128) :
    shapeCast S1x128 b shapeCasts_S128_S1x128 (ix2 (0 : Fin 1) j) = b (ix1 j) :=
  shapeCast_apply b shapeCasts_S128_S1x128 (ix2 (0 : Fin 1) j) (ix1 j) (by
    rw [Shape.rowMajor_val_two, Shape.rowMajor_val_one]; show j.val = 0 * 128 + j.val; omega)

end Cert.KernelIdeal.Prefix

end
-- ==== Proof.Bridge.lean ====
/-
  The two results are one function of the arguments.

  The kernel's result array holds, at (r, q), the network's entry for row r of [x | g] with the weights as the launch finds them
  and the biases as one-row matrices (Whole.result, Whole.net); the reference's result holds, at (r, q), the same entry with the biases as
  vectors (Net.result_apply).  The launch finds x, W1, W2 as the arguments, the aggregated messages g as the reference's own term
  of the arguments, and each bias row as the bias vector reshaped, whose entry (0, j) is the vector's entry j.
-/
import proofs.«119800_j85478439125101_1_alg».proof.Proof.KernelArray
import proofs.«119800_j85478439125101_1_alg».proof.Proof.RefNet
import proofs.«119800_j85478439125101_1_alg».proof.Proof.Prefix

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The reference's result term, of the kernel's arguments, is the kernel's result array. -/
theorem result_eq (c : Dev nD) :
    Cert.ReferenceIdeal.Read.val_main_v33 (F := Ideal) (m ((c : Thread nD τ).loc main_arg0)) (m ((c : Thread nD τ).loc main_arg1))
        (m ((c : Thread nD τ).loc main_arg2)) (m ((c : Thread nD τ).loc main_arg5)) (m ((c : Thread nD τ).loc main_arg6))
        (m ((c : Thread nD τ).loc main_arg7)) (m ((c : Thread nD τ).loc main_arg8))
      = Whole.result m c := by
  funext i
  obtain ⟨r, q, rfl⟩ : ∃ (r : Fin 100000) (q : Fin 128), i = ix2 r q := ⟨i 0, i 1, eq_ix2 i⟩
  rw [Cert.ReferenceIdeal.Net.result_apply]
  unfold Whole.result
  rw [Whole.net_ix2]
  have h1 : (fun j : Fin 128 => V m c main_v22 (ix2 (0 : Fin 1) j)) = fun j => m ((c : Thread nD τ).loc main_arg6) (ix1 j) :=
    funext fun j => (congrFun (Prefix.row1_eq m c) _).trans (Prefix.row_apply _ j)
  have h2 : (fun j : Fin 128 => V m c main_v23 (ix2 (0 : Fin 1) j)) = fun j => m ((c : Thread nD τ).loc main_arg8) (ix1 j) :=
    funext fun j => (congrFun (Prefix.row2_eq m c) _).trans (Prefix.row_apply _ j)
  rw [h1, h2, V_main_arg0 m c, Prefix.messages_eq m c, V_main_arg5 m c, V_main_arg7 m c]

end Cert.KernelIdeal.Bridge

end
-- ==== Proof.lean ====
/-
  The certificate: a two-layer network on node features joined with mean-aggregated messages, as a row-blocked kernel, against
  its plain reference.

  Both programs compute, from x [100000, 128], the edge list and the edge attributes, the aggregated messages g [100000, 131]
  (gather the source rows of x, join the edge attributes, add up per source node, divide by the count cut off below at one) with
  the same host operations; then the reference computes max ([x | g] · W1 + b1) 0 · W2 + b2 on the whole matrices, and the
  kernel computes it 4000 rows at a time.  Entry (r, q) of either result depends on row r of [x | g] only and is the same
  double sum over the extended reals in the same order (RowNet.entry), so the two results agree entry by entry with no
  appeal to finiteness; the aggregated messages are one term of the arguments on both sides and are never opened.  The three
  frames are the generated ones (the reference's is its run with the result dropped); the idealization rewrote nothing.
-/
import proofs.«119800_j85478439125101_1_alg».proof.Defs
import proofs.«119800_j85478439125101_1_alg».proof.Proof.Gen.Kernel
import proofs.«119800_j85478439125101_1_alg».proof.Proof.Gen.Kernel.Frame
import proofs.«119800_j85478439125101_1_alg».proof.Proof.Gen.KernelIdeal
import proofs.«119800_j85478439125101_1_alg».proof.Proof.Gen.KernelIdeal.Frame
import proofs.«119800_j85478439125101_1_alg».proof.Proof.Gen.KernelIdeal.Value
import proofs.«119800_j85478439125101_1_alg».proof.Proof.Gen.ReferenceIdeal
import proofs.«119800_j85478439125101_1_alg».proof.Proof.Gen.ReferenceIdeal.Run
import proofs.«119800_j85478439125101_1_alg».proof.Proof.Gen.ReferenceIdeal.Read
import proofs.«119800_j85478439125101_1_alg».proof.Proof.Gen.Pre_finite_inputs
import proofs.«119800_j85478439125101_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the network's entries for the rows of [x | g]: the kernel's by its blocks, the
    reference's by its own term, read at the arguments the two memories agree on. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, -, -, a5, a6, a7, a8⟩ := hagree c
  rw [Cert.ReferenceIdeal.Read.val_main_v33_eq, a0, a1, a2, a5, a6, a7, a8]
  exact Cert.KernelIdeal.Bridge.result_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
